-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 89
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x64, .f32⟩
  | .hbm, ⟨79, _⟩ => ⟨S1700000x1, .f32⟩
  | .hbm, ⟨80, _⟩ => ⟨S1700000x64, .f32⟩
  | .hbm, ⟨81, _⟩ => ⟨S1700000x64, .f32⟩
  | .hbm, ⟨82, _⟩ => ⟨S_, .f32⟩
  | .hbm, ⟨83, _⟩ => ⟨S100000x64, .f32⟩
  | .hbm, ⟨84, _⟩ => ⟨S1700000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 89
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x64, .f32⟩
  | .hbm, ⟨79, _⟩ => ⟨S1700000x1, .f32⟩
  | .hbm, ⟨80, _⟩ => ⟨S1700000x64, .f32⟩
  | .hbm, ⟨81, _⟩ => ⟨S1700000x64, .f32⟩
  | .hbm, ⟨82, _⟩ => ⟨S_, .f32⟩
  | .hbm, ⟨83, _⟩ => ⟨S100000x64, .f32⟩
  | .hbm, ⟨84, _⟩ => ⟨S1700000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.Layer1.lean ====
/- The first dense layer, as the kernel computes it. The pallas_call walks the 100000 rows of its left operand in 20 blocks
   of 5000 rows; at block t the body multiplies rows 5000·t … 5000·t + 4999 by the whole 128 × 128 right operand (the
   narrowing of both operands to bfloat16 is the identity on extended reals, the accumulator is the zero splat) and writes the
   5000 × 128 product back as rows 5000·t … of the result. So entry (r, c) of the result array is
   ∑ k, a (r, k) · b (k, c): the blocks are the restrictions of one whole-array function of the two operands as the region
   finds them, and the 20 blocks cover every row. -/
import proofs.«165942_j44358422233325_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Layer1

open Cert.KernelIdeal Cert.KernelIdeal.Gen

theorem hz : (![0, 0] : Fin 2 → Nat) = fun _ => 0 := funext fun a => by fin_cases a <;> rfl

/-! ## The whole-array product -/

/-- Row `i 0` of the left operand at column `k`. -/
abbrev lrow (i : S100000x128.Idx) (k : Fin 128) : S100000x128.Idx := fun a => match a with
  | ⟨0, _⟩ => ⟨(i 0).val, (i 0).isLt⟩
  | ⟨1, _⟩ => ⟨k.val, k.isLt⟩
/-- Column `i 1` of the right operand at row `k`. -/
abbrev rcol (i : S100000x128.Idx) (k : Fin 128) : S128x128.Idx := fun a => match a with
  | ⟨0, _⟩ => ⟨k.val, k.isLt⟩
  | ⟨1, _⟩ => ⟨(i 1).val, (i 1).isLt⟩

/-- The matrix product of the two whole arrays on the extended reals: entry (r, c) is ∑ k, a (r, k) · b (k, c). -/
def prod (a : (⟨S100000x128, .f32⟩ : BufTy).Contents (Elt Ideal)) (b : (⟨S128x128, .f32⟩ : BufTy).Contents (Elt Ideal)) :
    (⟨S100000x128, .f32⟩ : BufTy).Contents (Elt Ideal) :=
  fun i => ∑ k : Fin 128, a (lrow i k) * b (rcol i k)

/-! ## One block's product, entry by entry -/

/-- Row `j 0` of a 5000-row block at column `k`. -/
abbrev blrow (j : S5000x128.Idx) (k : Fin 128) : S5000x128.Idx := fun a => match a with
  | ⟨0, _⟩ => ⟨(j 0).val, (j 0).isLt⟩
  | ⟨1, _⟩ => ⟨k.val, k.isLt⟩
/-- Column `j 1` of the right operand at row `k`. -/
abbrev brcol (j : S5000x128.Idx) (k : Fin 128) : S128x128.Idx := fun a => match a with
  | ⟨0, _⟩ => ⟨k.val, k.isLt⟩
  | ⟨1, _⟩ => ⟨(j 1).val, (j 1).isLt⟩

/-- The left operand's index of the contraction: its row is the output's row, -/
theorem lhs_0 (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- its column the contraction index; -/
theorem lhs_1 (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
/-- the right operand's row is the contraction index, -/
theorem rhs_0 (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
/-- its column the output's column. -/
theorem rhs_1 (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- What the body stores, at entry `j` of the block: the sum over `k` of the loaded rows' entry (j 0, k) times the loaded
    right operand's entry (k, j 1). -/
theorem pay_apply (x0 : Vec Ideal S5000x128 .f32) (x1 : Vec Ideal S128x128 .f32) (j : S5000x128.Idx) :
    k0_pay1 (F := Ideal) x0 x1 j = ∑ k : Fin 128, x0 (blrow j k) * x1 (brcol j k) := by
  unfold k0_pay1
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = blrow j k := funext fun a => Fin.ext (by
    match a with
    | ⟨0, _⟩ => exact lhs_0 _ _
    | ⟨1, _⟩ => exact (lhs_1 _ _).trans hk)
  have er : dot_S5000x128_S128x128_S5000x128_1_0_0_1_n_n.rhsIdx j ((ValueIdx.contrEquiv1 dot_S5000x128_S128x128_S5000x128_1_0_0_1_n_n 128 rfl rfl).symm k) = brcol j k := funext fun a => Fin.ext (by
    match a with
    | ⟨0, _⟩ => exact (rhs_0 _ _).trans hk
    | ⟨1, _⟩ => exact rhs_1 _ _)
  rw [el, er]
  rfl

/-! ## The blocks are the whole-array product's, and they cover the array -/

section Region

variable (V : (c : Dev nD) → (b : Ref sig .tc) → Buf (Elt Ideal) ((c : Thread nD τ).loc b))

/-- The printed index maps over the 20 grid points: the left operand's and the result's blocks are block row `t`, the right
    operand's the one whole block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry `y` of the left operand's block at point `t` is entry (5000·t + y 0, y 1) of the array. -/
theorem lblock_apply (c : Dev nD) (t : Fin cfg0.N) (y : S5000x128.Idx) (p : S100000x128.Idx)
    (h0 : (p 0).val = t.val * 5000 + (y 0).val) (h1 : (p 1).val = (y 1).val) :
    (iblk0 V c 0 t : Vec Ideal S5000x128 .f32) y = (V c main_arg0 : S100000x128.Idx → Elt Ideal .f32) p := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 5000 + 1 * (y 0).val = (p 0).val; rw [e0, h0]; omega
  | ⟨1, _⟩ => show win0_0.index t 1 * 128 + 1 * (y 1).val = (p 1).val; rw [e1, h1]; omega

/-- The right operand's block at every point is the whole array. -/
theorem rblock_apply (c : Dev nD) (t : Fin cfg0.N) (y : S128x128.Idx) (p : S128x128.Idx)
    (h0 : (p 0).val = (y 0).val) (h1 : (p 1).val = (y 1).val) :
    (iblk0 V c 1 t : Vec Ideal S128x128 .f32) y = (V c main_arg2 : S128x128.Idx → Elt Ideal .f32) p := by
  obtain ⟨-, -, e2, e3, -⟩ := idx_facts t
  unfold iblk0
  rw [View.read_apply]
  show V c main_arg2 _ = V c main_arg2 _
  congr 1
  funext a
  apply Fin.ext
  match a with
  | ⟨0, _⟩ => show win0_1.index t 0 * 128 + 1 * (y 0).val = (p 0).val; rw [e2, h0]; omega
  | ⟨1, _⟩ => show win0_1.index t 1 * 128 + 1 * (y 1).val = (p 1).val; rw [e3, h1]; omega

/-- What point `t` writes back is block `t` of the product of the two operand arrays as the region finds them. -/
theorem flushed_eq (c : Dev nD) (t : Fin cfg0.N) :
    (dat0 V c).flushed 2 t = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨-, -, -, -, e4, e5⟩ := idx_facts t
  funext j
  rw [View.read_apply]
  refine (pay_apply (iblk0 V c 0 t) (iblk0 V c 1 t) j).trans ?_
  unfold prod
  refine Finset.sum_congr rfl fun k _ => ?_
  have hj0 : (j 0).val < 5000 := (j 0).isLt
  have hj1 : (j 1).val < 128 := (j 1).isLt
  have r0 : ((((cfg0.win 2).blk t).view.emb j) 0).val = t.val * 5000 + (j 0).val := by
    show win0_2.index t 0 * 5000 + 1 * (j 0).val = _; rw [e4]; omega
  have r1 : ((((cfg0.win 2).blk t).view.emb j) 1).val = (j 1).val := by
    show win0_2.index t 1 * 128 + 1 * (j 1).val = _; rw [e5]; omega
  rw [lblock_apply V c t (blrow j k) (lrow (((cfg0.win 2).blk t).view.emb j) k) r0 rfl,
    rblock_apply V c t (brcol j k) (rcol (((cfg0.win 2).blk t).view.emb j) k) rfl r1]

/-- An index of the result array is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Row `r` of the result lies in the block of point `r / 5000`. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨-, -, -, -, e4, e5⟩ := idx_facts ⟨(i 0).val / 5000, ht⟩
  refine ⟨⟨(i 0).val / 5000, ht⟩, flush0_2 _, ?_⟩
  rw [mem_blk]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 128 ≤ (i 1).val ∧ (i 1).val < win0_2.index ⟨(i 0).val / 5000, ht⟩ (1 : Fin 2) * 128 + 128
    rw [e5]; omega

/-- The result array after the region: the product of the two operand arrays as the region finds them. -/
theorem arr (c : Dev nD) : (dat0 V c).arrAt 2 cfg0.N = prod (V c main_arg0) (V c main_arg2) :=
  (dat0 V c).arrAt_eq_of_cover 2 (prod (V c main_arg0) (V c main_arg2)) (fun t _ => flushed_eq V c t) cover

end Region

end Cert.KernelIdeal.Layer1

end
-- ==== Proof.Layer2.lean ====
/- The second dense layer, as the kernel computes it. The pallas_call walks the 100000 rows of its left operand (the first
   layer's activations) in 20 blocks of 5000 rows; at block t the body multiplies rows 5000·t … 5000·t + 4999 by the whole
   128 × 64 right operand (the narrowing of both operands to bfloat16 is the identity on extended reals, the cast of the
   loaded block to its own shape changes nothing, the accumulator is the zero splat) and writes the 5000 × 64 product back as
   rows 5000·t … of the result. So entry (r, c) of the result array is ∑ k, a (r, k) · b (k, c), and the 20 blocks cover
   every row. -/
import proofs.«165942_j44358422233325_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Layer2

open Cert.KernelIdeal Cert.KernelIdeal.Gen

theorem hz : (![0, 0] : Fin 2 → Nat) = fun _ => 0 := funext fun a => by fin_cases a <;> rfl

/-! ## The whole-array product -/

/-- Row `i 0` of the left operand at column `k`. -/
abbrev lrow (i : S100000x64.Idx) (k : Fin 128) : S100000x128.Idx := fun a => match a with
  | ⟨0, _⟩ => ⟨(i 0).val, (i 0).isLt⟩
  | ⟨1, _⟩ => ⟨k.val, k.isLt⟩
/-- Column `i 1` of the right operand at row `k`. -/
abbrev rcol (i : S100000x64.Idx) (k : Fin 128) : S128x64.Idx := fun a => match a with
  | ⟨0, _⟩ => ⟨k.val, k.isLt⟩
  | ⟨1, _⟩ => ⟨(i 1).val, (i 1).isLt⟩

/-- The matrix product of the two whole arrays on the extended reals: entry (r, c) is ∑ k, a (r, k) · b (k, c). -/
def prod (a : (⟨S100000x128, .f32⟩ : BufTy).Contents (Elt Ideal)) (b : (⟨S128x64, .f32⟩ : BufTy).Contents (Elt Ideal)) :
    (⟨S100000x64, .f32⟩ : BufTy).Contents (Elt Ideal) :=
  fun i => ∑ k : Fin 128, a (lrow i k) * b (rcol i k)

/-! ## One block's product, entry by entry -/

/-- Row `j 0` of a 5000-row block at column `k`. -/
abbrev blrow (j : S5000x64.Idx) (k : Fin 128) : S5000x128.Idx := fun a => match a with
  | ⟨0, _⟩ => ⟨(j 0).val, (j 0).isLt⟩
  | ⟨1, _⟩ => ⟨k.val, k.isLt⟩
/-- Column `j 1` of the right operand at row `k`. -/
abbrev brcol (j : S5000x64.Idx) (k : Fin 128) : S128x64.Idx := fun a => match a with
  | ⟨0, _⟩ => ⟨k.val, k.isLt⟩
  | ⟨1, _⟩ => ⟨(j 1).val, (j 1).isLt⟩

/-- The left operand's index of the contraction: its row is the output's row, -/
theorem lhs_0 (j : S5000x64.Idx) (q : dot_S5000x128_S128x64_S5000x64_1_0_0_1_n_n.contr.Idx) :
    (dot_S5000x128_S128x64_S5000x64_1_0_0_1_n_n.lhsIdx j q 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- its column the contraction index; -/
theorem lhs_1 (j : S5000x64.Idx) (q : dot_S5000x128_S128x64_S5000x64_1_0_0_1_n_n.contr.Idx) :
    (dot_S5000x128_S128x64_S5000x64_1_0_0_1_n_n.lhsIdx j q 1).val = (q ⟨0, by decide⟩).val :=
  dot_S5000x128_S128x64_S5000x64_1_0_0_1_n_n.lhsIdx_val_of_single rfl j q
/-- the right operand's row is the contraction index, -/
theorem rhs_0 (j : S5000x64.Idx) (q : dot_S5000x128_S128x64_S5000x64_1_0_0_1_n_n.contr.Idx) :
    (dot_S5000x128_S128x64_S5000x64_1_0_0_1_n_n.rhsIdx j q 0).val = (q ⟨0, by decide⟩).val :=
  dot_S5000x128_S128x64_S5000x64_1_0_0_1_n_n.rhsIdx_val_of_single rfl j q
/-- its column the output's column. -/
theorem rhs_1 (j : S5000x64.Idx) (q : dot_S5000x128_S128x64_S5000x64_1_0_0_1_n_n.contr.Idx) :
    (dot_S5000x128_S128x64_S5000x64_1_0_0_1_n_n.rhsIdx j q 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- What the body stores, at entry `j` of the block: the sum over `k` of the loaded rows' entry (j 0, k) times the loaded
    right operand's entry (k, j 1). -/
theorem pay_apply (x0 : Vec Ideal S5000x128 .f32) (x1 : Vec Ideal S128x64 .f32) (j : S5000x64.Idx) :
    k1_pay1 (F := Ideal) x0 x1 j = ∑ k : Fin 128, x0 (blrow j k) * x1 (brcol j k) := by
  unfold k1_pay1
  simp only [matmul, shapeCast_self]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = blrow j k := funext fun a => Fin.ext (by
    match a with
    | ⟨0, _⟩ => exact lhs_0 _ _
    | ⟨1, _⟩ => exact (lhs_1 _ _).trans hk)
  have er : dot_S5000x128_S128x64_S5000x64_1_0_0_1_n_n.rhsIdx j ((ValueIdx.contrEquiv1 dot_S5000x128_S128x64_S5000x64_1_0_0_1_n_n 128 rfl rfl).symm k) = brcol j k := funext fun a => Fin.ext (by
    match a with
    | ⟨0, _⟩ => exact (rhs_0 _ _).trans hk
    | ⟨1, _⟩ => exact rhs_1 _ _)
  rw [el, er]
  rfl

/-! ## The blocks are the whole-array product's, and they cover the array -/

section Region

variable (V : (c : Dev nD) → (b : Ref sig .tc) → Buf (Elt Ideal) ((c : Thread nD τ).loc b))

/-- The printed index maps over the 20 grid points: the left operand's and the result's blocks are block row `t`, the right
    operand's the one whole block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry `y` of the left operand's block at point `t` is entry (5000·t + y 0, y 1) of the array. -/
theorem lblock_apply (c : Dev nD) (t : Fin cfg1.N) (y : S5000x128.Idx) (p : S100000x128.Idx)
    (h0 : (p 0).val = t.val * 5000 + (y 0).val) (h1 : (p 1).val = (y 1).val) :
    (iblk1 V c 0 t : Vec Ideal S5000x128 .f32) y = (V c main_v47 : S100000x128.Idx → Elt Ideal .f32) p := by
  obtain ⟨e0, e1, -⟩ := idx_facts t
  unfold iblk1
  rw [View.read_apply]
  show V c main_v47 _ = V c main_v47 _
  congr 1
  funext a
  apply Fin.ext
  match a with
  | ⟨0, _⟩ => show win1_0.index t 0 * 5000 + 1 * (y 0).val = (p 0).val; rw [e0, h0]; omega
  | ⟨1, _⟩ => show win1_0.index t 1 * 128 + 1 * (y 1).val = (p 1).val; rw [e1, h1]; omega

/-- The right operand's block at every point is the whole array. -/
theorem rblock_apply (c : Dev nD) (t : Fin cfg1.N) (y : S128x64.Idx) (p : S128x64.Idx)
    (h0 : (p 0).val = (y 0).val) (h1 : (p 1).val = (y 1).val) :
    (iblk1 V c 1 t : Vec Ideal S128x64 .f32) y = (V c main_arg4 : S128x64.Idx → Elt Ideal .f32) p := by
  obtain ⟨-, -, e2, e3, -⟩ := idx_facts t
  unfold iblk1
  rw [View.read_apply]
  show V c main_arg4 _ = V c main_arg4 _
  congr 1
  funext a
  apply Fin.ext
  match a with
  | ⟨0, _⟩ => show win1_1.index t 0 * 128 + 1 * (y 0).val = (p 0).val; rw [e2, h0]; omega
  | ⟨1, _⟩ => show win1_1.index t 1 * 64 + 1 * (y 1).val = (p 1).val; rw [e3, h1]; omega

/-- What point `t` writes back is block `t` of the product of the two operand arrays as the region finds them. -/
theorem flushed_eq (c : Dev nD) (t : Fin cfg1.N) :
    (dat1 V c).flushed 2 t = ((cfg1.win 2).blk t).view.read (Elt Ideal) (prod (V c main_v47) (V c main_arg4)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x64) hz]
  obtain ⟨-, -, -, -, e4, e5⟩ := idx_facts t
  funext j
  rw [View.read_apply]
  refine (pay_apply (iblk1 V c 0 t) (iblk1 V c 1 t) j).trans ?_
  unfold prod
  refine Finset.sum_congr rfl fun k _ => ?_
  have hj0 : (j 0).val < 5000 := (j 0).isLt
  have hj1 : (j 1).val < 64 := (j 1).isLt
  have r0 : ((((cfg1.win 2).blk t).view.emb j) 0).val = t.val * 5000 + (j 0).val := by
    show win1_2.index t 0 * 5000 + 1 * (j 0).val = _; rw [e4]; omega
  have r1 : ((((cfg1.win 2).blk t).view.emb j) 1).val = (j 1).val := by
    show win1_2.index t 1 * 64 + 1 * (j 1).val = _; rw [e5]; omega
  rw [lblock_apply V c t (blrow j k) (lrow (((cfg1.win 2).blk t).view.emb j) k) r0 rfl,
    rblock_apply V c t (brcol j k) (rcol (((cfg1.win 2).blk t).view.emb j) k) rfl r1]

/-- An index of the result array is in point `t`'s block iff each coordinate is in the block's range on its axis. -/
theorem mem_blk (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v48).slice (win1_2.rect t)).set ↔ _
  rw [View.set_slice_whole, Rect.mem_set_unit]
  exact Iff.rfl

/-- Row `r` of the result lies in the block of point `r / 5000`. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 20 := N_1
  have ht : (i 0).val / 5000 < cfg1.N := by rw [hN]; omega
  obtain ⟨-, -, -, -, e4, e5⟩ := idx_facts ⟨(i 0).val / 5000, ht⟩
  refine ⟨⟨(i 0).val / 5000, ht⟩, flush1_2 _, ?_⟩
  rw [mem_blk]
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, ht⟩ (1 : Fin 2) * 64 ≤ (i 1).val ∧ (i 1).val < win1_2.index ⟨(i 0).val / 5000, ht⟩ (1 : Fin 2) * 64 + 64
    rw [e5]; omega

/-- The result array after the region: the product of the two operand arrays as the region finds them. -/
theorem arr (c : Dev nD) : (dat1 V c).arrAt 2 cfg1.N = prod (V c main_v47) (V c main_arg4) :=
  (dat1 V c).arrAt_eq_of_cover 2 (prod (V c main_v47) (V c main_arg4)) (fun t _ => flushed_eq V c t) cover

end Region

end Cert.KernelIdeal.Layer2

end
-- ==== Proof.HostSide.lean ====
/- The host side of the kernel's program, stage by stage against the reference's stages. Both programs apply the same host
   operations around their dense layers: the source and destination node of every edge with the self loops appended, the
   symmetric normalisation weight of every edge, a row gather of the transformed features by source node, the scaling by the
   weight, the scatter-add into destination nodes, the bias and (after the first layer) the rectifier. So it is enough to
   walk the kernel's program from boundary to boundary: a host stretch applied to buffers that hold the reference's stages
   leaves the reference's later stage (the two terms are the same operations of the same values), and a dense layer's region
   leaves the matrix product of the stage it reads with its weight, which is the reference's dot_general of them: entry (r, c)
   of either is ∑ k, a (r, k) · b (k, c) on the extended reals. -/
import proofs.«165942_j44358422233325_1_alg».proof.Proof.Gen.KernelIdeal.Frame
import proofs.«165942_j44358422233325_1_alg».proof.Proof.RefRead
import proofs.«165942_j44358422233325_1_alg».proof.Proof.Layer1
import proofs.«165942_j44358422233325_1_alg».proof.Proof.Layer2
import Idealize.ShloMosaic.Lib.StableHlo.Run
import Idealize.ShloMosaic.PureOps.Ideal

set_option maxRecDepth 16384

noncomputable section

open Idealize.ShloMosaic Idealize.ShloMosaic.TcCoe Idealize.SL.Sem Idealize.ShloMosaic.StableHlo

namespace Cert.KernelIdeal.HostSide

open Cert.KernelIdeal Cert.KernelIdeal.Gen
open Cert.ReferenceIdeal.ReadP (val_main_v5 val_main_v6 val_main_v29 val_main_v30 val_main_v47 val_main_v48 val_main_v64)

/-! ## The host stretches, over any buffer contents -/

/-- What one simplification pass over a stretch's fold leaves: the fold inside the operand lists of the two concatenations
    (source and destination nodes with the self loops appended), read by rewriting. -/
local macro "fold_rest" : tactic => `(tactic| repeat (first
  | rw [nullary_result] | rw [unary_result] | rw [binary_result] | rw [ternary_result] | rw [reshape_result]
  | (rw [nullary_result_ne]; rotate_left; decide) | (rw [unary_result_ne]; rotate_left; decide)
  | (rw [binary_result_ne]; rotate_left; decide) | (rw [ternary_result_ne]; rotate_left; decide)
  | (rw [reshape_result_ne]; rotate_left; decide)))

section Stretches

variable {F : FTy → Type} [FloatOps F]
variable (Vv : Valuation τ sig (Elt F))
variable (x0 : (⟨S100000x128, .f32⟩ : BufTy).Contents (Elt F)) (x1 : (⟨S2x1600000, .i32⟩ : BufTy).Contents (Elt F)) (x2 : (⟨S128x128, .f32⟩ : BufTy).Contents (Elt F))
  (x3 : (⟨S128, .f32⟩ : BufTy).Contents (Elt F)) (x4 : (⟨S128x64, .f32⟩ : BufTy).Contents (Elt F)) (x5 : (⟨S64, .f32⟩ : BufTy).Contents (Elt F))

/-- The first stretch (up to the first dense layer) applied to any contents. -/
abbrev pre : Valuation τ sig (Elt F) := StableHlo.after hostOps0_2 (StableHlo.after hostOps0_1 (StableHlo.after hostOps0 Vv))
/-- The stretch between the two dense layers. -/
abbrev mid : Valuation τ sig (Elt F) := StableHlo.after hostOps1_1 (StableHlo.after hostOps1 Vv)

/-- The first stretch leaves the edges' source nodes, self loops appended, -/
theorem pre_src (h1 : Vv (Proc.devRef .tc main_arg1) = x1) : pre Vv (Proc.devRef .tc main_v5) = val_main_v5 (F := F) x1 := by
  subst h1; after_results_simp; fold_rest; rfl
/-- their destination nodes, -/
theorem pre_dst (h1 : Vv (Proc.devRef .tc main_arg1) = x1) : pre Vv (Proc.devRef .tc main_v6) = val_main_v6 (F := F) x1 := by
  subst h1; after_results_simp; fold_rest; rfl
set_option maxHeartbeats 4000000 in
/-- and every edge's normalisation weight: the product of the inverse square roots of its end nodes' degrees. -/
theorem pre_weight (h1 : Vv (Proc.devRef .tc main_arg1) = x1) : pre Vv (Proc.devRef .tc main_v29) = val_main_v29 (F := F) x1 := by
  subst h1; after_results_simp; fold_rest; rfl
/-- It writes none of the float arguments. -/
theorem pre_keep : pre Vv (Proc.devRef .tc main_arg0) = Vv (Proc.devRef .tc main_arg0)
    ∧ pre Vv (Proc.devRef .tc main_arg2) = Vv (Proc.devRef .tc main_arg2)
    ∧ pre Vv (Proc.devRef .tc main_arg3) = Vv (Proc.devRef .tc main_arg3)
    ∧ pre Vv (Proc.devRef .tc main_arg4) = Vv (Proc.devRef .tc main_arg4)
    ∧ pre Vv (Proc.devRef .tc main_arg5) = Vv (Proc.devRef .tc main_arg5) := by
  refine ⟨?_, ?_, ?_, ?_, ?_⟩ <;> after_results_simp

set_option maxHeartbeats 4000000 in
/-- The middle stretch, applied to contents that hold the first layer's product, the edges and the weights, leaves the
    first layer's activations: gather by source, scale, scatter-add by destination, bias, rectifier. -/
theorem mid_act (h30 : Vv (Proc.devRef .tc main_v30) = val_main_v30 (F := F) x0 x2)
    (h5 : Vv (Proc.devRef .tc main_v5) = val_main_v5 (F := F) x1) (h6 : Vv (Proc.devRef .tc main_v6) = val_main_v6 (F := F) x1)
    (h29 : Vv (Proc.devRef .tc main_v29) = val_main_v29 (F := F) x1) (h3 : Vv (Proc.devRef .tc main_arg3) = x3) :
    mid Vv (Proc.devRef .tc main_v47) = val_main_v47 (F := F) x0 x1 x2 x3 := by
  after_results_simp
  rw [h30, h5, h6, h29, h3]
  rfl
/-- It writes neither the edges, the weights nor the later arguments. -/
theorem mid_keep : mid Vv (Proc.devRef .tc main_v5) = Vv (Proc.devRef .tc main_v5)
    ∧ mid Vv (Proc.devRef .tc main_v6) = Vv (Proc.devRef .tc main_v6)
    ∧ mid Vv (Proc.devRef .tc main_v29) = Vv (Proc.devRef .tc main_v29)
    ∧ mid Vv (Proc.devRef .tc main_arg4) = Vv (Proc.devRef .tc main_arg4)
    ∧ mid Vv (Proc.devRef .tc main_arg5) = Vv (Proc.devRef .tc main_arg5) := by
  refine ⟨?_, ?_, ?_, ?_, ?_⟩ <;> after_results_simp

set_option maxHeartbeats 4000000 in
/-- The last stretch, applied to contents that hold the second layer's product, the edges and the weights, leaves the
    result: gather by source, scale, scatter-add by destination, bias. -/
theorem post_result (h48 : Vv (Proc.devRef .tc main_v48) = val_main_v48 (F := F) x0 x1 x2 x3 x4)
    (h5 : Vv (Proc.devRef .tc main_v5) = val_main_v5 (F := F) x1) (h6 : Vv (Proc.devRef .tc main_v6) = val_main_v6 (F := F) x1)
    (h29 : Vv (Proc.devRef .tc main_v29) = val_main_v29 (F := F) x1) (hb : Vv (Proc.devRef .tc main_arg5) = x5) :
    StableHlo.after hostOps2 Vv (Proc.devRef .tc main_v64) = val_main_v64 (F := F) x0 x1 x2 x3 x4 x5 := by
  after_results_simp
  rw [h48, h5, h6, h29, hb]
  rfl

end Stretches

/-! ## A dense layer's product is the reference's dot_general -/

section Products

theorem lrow1_eq (i : S100000x128.Idx) (k : Fin 128) : Cert.ReferenceIdeal.ReadP.lidx_main_v30 i k = Layer1.lrow i k :=
  funext fun a => Fin.ext (by match a with | ⟨0, _⟩ => rfl | ⟨1, _⟩ => rfl)
theorem rcol1_eq (i : S100000x128.Idx) (k : Fin 128) : Cert.ReferenceIdeal.ReadP.ridx_main_v30 i k = Layer1.rcol i k :=
  funext fun a => Fin.ext (by match a with | ⟨0, _⟩ => rfl | ⟨1, _⟩ => rfl)
theorem lrow2_eq (i : S100000x64.Idx) (k : Fin 128) : Cert.ReferenceIdeal.ReadP.lidx_main_v48 i k = Layer2.lrow i k :=
  funext fun a => Fin.ext (by match a with | ⟨0, _⟩ => rfl | ⟨1, _⟩ => rfl)
theorem rcol2_eq (i : S100000x64.Idx) (k : Fin 128) : Cert.ReferenceIdeal.ReadP.ridx_main_v48 i k = Layer2.rcol i k :=
  funext fun a => Fin.ext (by match a with | ⟨0, _⟩ => rfl | ⟨1, _⟩ => rfl)

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x64, .f32⟩ : BufTy).Contents (Elt Ideal))

/-- The first layer: the host's dot_general of the features with the first weight is their matrix product. -/
theorem prod1_eq : Layer1.prod x0 x2 = val_main_v30 (F := Ideal) x0 x2 := by
  funext i
  rw [Cert.ReferenceIdeal.ReadP.val_main_v30_apply]
  show ∑ k : Fin 128, x0 (Layer1.lrow i k) * x2 (Layer1.rcol i k) = _
  exact Finset.sum_congr rfl fun k _ => by rw [lrow1_eq i k, rcol1_eq i k]

/-- The second layer: the host's dot_general of the first layer's activations with the second weight likewise. -/
theorem prod2_eq : Layer2.prod (val_main_v47 (F := Ideal) x0 x1 x2 x3) x4 = val_main_v48 (F := Ideal) x0 x1 x2 x3 x4 := by
  funext i
  rw [Cert.ReferenceIdeal.ReadP.val_main_v48_apply]
  show ∑ k : Fin 128, val_main_v47 (F := Ideal) x0 x1 x2 x3 (Layer2.lrow i k) * x4 (Layer2.rcol i k) = _
  exact Finset.sum_congr rfl fun k _ => by rw [lrow2_eq i k, rcol2_eq i k]

end Products

/-! ## The run's last boundary -/

section Run

variable (m : (ℓ : Loc nD τ sig) → Buf (Elt Ideal) ℓ) (ρ : Dev nD → PrngReg)

/-- The launch contents of the six arguments on core `c`. -/
abbrev a0 (c : Dev nD) : (⟨S100000x128, .f32⟩ : BufTy).Contents (Elt Ideal) := (m ((c.tc : Thread nD τ).loc main_arg0))
abbrev a1 (c : Dev nD) : (⟨S2x1600000, .i32⟩ : BufTy).Contents (Elt Ideal) := (m ((c.tc : Thread nD τ).loc main_arg1))
abbrev a2 (c : Dev nD) : (⟨S128x128, .f32⟩ : BufTy).Contents (Elt Ideal) := (m ((c.tc : Thread nD τ).loc main_arg2))
abbrev a3 (c : Dev nD) : (⟨S128, .f32⟩ : BufTy).Contents (Elt Ideal) := (m ((c.tc : Thread nD τ).loc main_arg3))
abbrev a4 (c : Dev nD) : (⟨S128x64, .f32⟩ : BufTy).Contents (Elt Ideal) := (m ((c.tc : Thread nD τ).loc main_arg4))
abbrev a5 (c : Dev nD) : (⟨S64, .f32⟩ : BufTy).Contents (Elt Ideal) := (m ((c.tc : Thread nD τ).loc main_arg5))

/-- After the run the result buffer holds the reference's last stage of the arguments' launch contents: the boundaries of
    the kernel's program walked in order, each host stretch by its lemma above, each dense layer by its product. -/
theorem result_eq (c : Dev nD) :
    W8 m ρ c (Proc.devRef .tc main_v64) = val_main_v64 (F := Ideal) (a0 m c) (a1 m c) (a2 m c) (a3 m c) (a4 m c) (a5 m c) := by
  -- up to the first dense layer
  have e1 : W0 m ρ c (Proc.devRef .tc main_arg1) = a1 m c := rfl
  obtain ⟨p0, p2, p3, p4, p5⟩ := pre_keep (W0 m ρ c)
  have s5_3 : W3 m ρ c (Proc.devRef .tc main_v5) = val_main_v5 (F := Ideal) (a1 m c) := pre_src (W0 m ρ c) _ e1
  have s6_3 : W3 m ρ c (Proc.devRef .tc main_v6) = val_main_v6 (F := Ideal) (a1 m c) := pre_dst (W0 m ρ c) _ e1
  have s29_3 : W3 m ρ c (Proc.devRef .tc main_v29) = val_main_v29 (F := Ideal) (a1 m c) := pre_weight (W0 m ρ c) _ e1
  have i0 : V3 m ρ c main_arg0 = a0 m c := p0
  have i2 : V3 m ρ c main_arg2 = a2 m c := p2
  -- the first dense layer
  have v30_4 : W4 m ρ c (Proc.devRef .tc main_v30) = val_main_v30 (F := Ideal) (a0 m c) (a2 m c) :=
    ((W4_arr m ρ c 2).trans (Layer1.arr (V3 m ρ) c)).trans ((congrArg₂ Layer1.prod i0 i2).trans (prod1_eq _ _))
  have s5_4 : W4 m ρ c (Proc.devRef .tc main_v5) = val_main_v5 (F := Ideal) (a1 m c) := (W4_of_ne m ρ c main_v5 (by decide)).trans s5_3
  have s6_4 : W4 m ρ c (Proc.devRef .tc main_v6) = val_main_v6 (F := Ideal) (a1 m c) := (W4_of_ne m ρ c main_v6 (by decide)).trans s6_3
  have s29_4 : W4 m ρ c (Proc.devRef .tc main_v29) = val_main_v29 (F := Ideal) (a1 m c) := (W4_of_ne m ρ c main_v29 (by decide)).trans s29_3
  have q3 : W4 m ρ c (Proc.devRef .tc main_arg3) = a3 m c := (W4_of_ne m ρ c main_arg3 (by decide)).trans p3
  have q4 : W4 m ρ c (Proc.devRef .tc main_arg4) = a4 m c := (W4_of_ne m ρ c main_arg4 (by decide)).trans p4
  have q5 : W4 m ρ c (Proc.devRef .tc main_arg5) = a5 m c := (W4_of_ne m ρ c main_arg5 (by decide)).trans p5
  -- between the layers
  obtain ⟨k5, k6, k29, k4, k5'⟩ := mid_keep (W4 m ρ c)
  have v47_6 : W6 m ρ c (Proc.devRef .tc main_v47) = val_main_v47 (F := Ideal) (a0 m c) (a1 m c) (a2 m c) (a3 m c) :=
    mid_act (W4 m ρ c) _ _ _ _ v30_4 s5_4 s6_4 s29_4 q3
  have s5_6 : W6 m ρ c (Proc.devRef .tc main_v5) = val_main_v5 (F := Ideal) (a1 m c) := k5.trans s5_4
  have s6_6 : W6 m ρ c (Proc.devRef .tc main_v6) = val_main_v6 (F := Ideal) (a1 m c) := k6.trans s6_4
  have s29_6 : W6 m ρ c (Proc.devRef .tc main_v29) = val_main_v29 (F := Ideal) (a1 m c) := k29.trans s29_4
  have r4 : W6 m ρ c (Proc.devRef .tc main_arg4) = a4 m c := k4.trans q4
  have r5 : W6 m ρ c (Proc.devRef .tc main_arg5) = a5 m c := k5'.trans q5
  have j0 : V6 m ρ c main_v47 = val_main_v47 (F := Ideal) (a0 m c) (a1 m c) (a2 m c) (a3 m c) := v47_6
  have j1 : V6 m ρ c main_arg4 = a4 m c := r4
  -- the second dense layer
  have v48_7 : W7 m ρ c (Proc.devRef .tc main_v48) = val_main_v48 (F := Ideal) (a0 m c) (a1 m c) (a2 m c) (a3 m c) (a4 m c) :=
    ((W7_arr m ρ c 2).trans (Layer2.arr (V6 m ρ) c)).trans ((congrArg₂ Layer2.prod j0 j1).trans (prod2_eq _ _ _ _ _))
  have s5_7 : W7 m ρ c (Proc.devRef .tc main_v5) = val_main_v5 (F := Ideal) (a1 m c) := (W7_of_ne m ρ c main_v5 (by decide)).trans s5_6
  have s6_7 : W7 m ρ c (Proc.devRef .tc main_v6) = val_main_v6 (F := Ideal) (a1 m c) := (W7_of_ne m ρ c main_v6 (by decide)).trans s6_6
  have s29_7 : W7 m ρ c (Proc.devRef .tc main_v29) = val_main_v29 (F := Ideal) (a1 m c) := (W7_of_ne m ρ c main_v29 (by decide)).trans s29_6
  have t5 : W7 m ρ c (Proc.devRef .tc main_arg5) = a5 m c := (W7_of_ne m ρ c main_arg5 (by decide)).trans r5
  -- after the second layer
  exact post_result (W7 m ρ c) _ _ _ _ _ _ v48_7 s5_7 s6_7 s29_7 t5

end Run

end Cert.KernelIdeal.HostSide

end
-- ==== Proof.lean ====
/- A two-layer graph convolution, kernel against reference. Both programs compute, for node features x, edges e and weights
   W1, b1, W2, b2:  out = A · (relu (A · (x · W1) + b1) · W2) + b2,  where A · h stands for "gather the rows of h by source
   node, scale each by its edge's normalisation weight, scatter-add into destination nodes", with the self loops appended and
   the weight of an edge the product of the inverse square roots of its end nodes' degrees. They differ only in the two dense
   products: the kernel computes each in a pallas_call, 5000 rows at a time (the operands narrowed to bfloat16, which on
   extended reals is the identity), the reference by one dot_general. At the ideal values entry (r, c) of either is
   ∑ k, a (r, k) · b (k, c), so the two products are equal as they stand, and everything around them is the same host
   operations of equal values. No law of arithmetic beyond that is used, and the precondition is never opened.

   The frames of the two kernel programs are the generated ones; the reference's frame is its run with the result dropped;
   nothing was rewritten by the ideal pass, so there is nothing to preserve. -/
import proofs.«165942_j44358422233325_1_alg».proof.Defs
import proofs.«165942_j44358422233325_1_alg».proof.Proof.Gen.Kernel
import proofs.«165942_j44358422233325_1_alg».proof.Proof.Gen.Kernel.Skeleton
import proofs.«165942_j44358422233325_1_alg».proof.Proof.Gen.Kernel.Launch
import proofs.«165942_j44358422233325_1_alg».proof.Proof.Gen.Kernel.Points
import proofs.«165942_j44358422233325_1_alg».proof.Proof.Gen.Kernel.Frame
import proofs.«165942_j44358422233325_1_alg».proof.Proof.Gen.KernelIdeal
import proofs.«165942_j44358422233325_1_alg».proof.Proof.Gen.KernelIdeal.Skeleton
import proofs.«165942_j44358422233325_1_alg».proof.Proof.Gen.KernelIdeal.Launch
import proofs.«165942_j44358422233325_1_alg».proof.Proof.Gen.KernelIdeal.Points
import proofs.«165942_j44358422233325_1_alg».proof.Proof.Gen.KernelIdeal.Frame
import proofs.«165942_j44358422233325_1_alg».proof.Proof.Gen.ReferenceIdeal
import proofs.«165942_j44358422233325_1_alg».proof.Proof.Gen.Pre_finite_inputs
import proofs.«165942_j44358422233325_1_alg».proof.Proof.RefRun
import proofs.«165942_j44358422233325_1_alg».proof.Proof.RefRead
import proofs.«165942_j44358422233325_1_alg».proof.Proof.KRun
import proofs.«165942_j44358422233325_1_alg».proof.Proof.HostSide
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the reference's last stage of the arguments in their result buffer: the kernel's by the walk of
    its boundaries, the reference's by its run, the arguments agreeing. -/
theorem algebraic : Cert.algebraic_KernelIdeal_ReferenceIdeal := by
  intro m ρ m' ρ' _ hagree
  refine ⟨fun c => Cert.KernelIdeal.Gen.W8 m ρ c (Proc.devRef .tc Cert.KernelIdeal.main_v64), Cert.KernelIdeal.GenP.run_named (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v64_eq, (hagree c).1, (hagree c).2.1, (hagree c).2.2.1, (hagree c).2.2.2.1,
    (hagree c).2.2.2.2.1, (hagree c).2.2.2.2.2]
  exact (Cert.KernelIdeal.HostSide.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
